-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S16 : Shape := ⟨1, ![16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S16x4096 .f32) (main_arg3 : FVec F S4096x16 .f32) (main_arg4 : FVec F S16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S16 : Shape := ⟨1, ![16]⟩
abbrev S_ : Shape := ⟨0, ![]⟩
abbrev S1x16 : Shape := ⟨2, ![1, 16]⟩
abbrev S8192x4096 : Shape := ⟨2, ![8192, 4096]⟩
abbrev S1024x1024 : Shape := ⟨2, ![1024, 1024]⟩

abbrev nBuf : Space → Nat
  | .hbm => 25
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .i1⟩
  | .hbm, ⟨9, _⟩ => ⟨S16, .f32⟩
  | .hbm, ⟨10, _⟩ => ⟨S16, .f32⟩
  | .hbm, ⟨11, _⟩ => ⟨S1x16, .f32⟩
  | .hbm, ⟨12, _⟩ => ⟨S4096x16, .f32⟩
  | .hbm, ⟨13, _⟩ => ⟨S4096x16, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S8192x4096, .f32⟩
  | .hbm, ⟨21, _⟩ => ⟨S8192x4096, .bf16⟩
  | .hbm, ⟨22, _⟩ => ⟨S4096x4096, .bf16⟩
  | .hbm, ⟨23, _⟩ => ⟨S8192x4096, .f32⟩
  | .hbm, ⟨24, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S16 : S_.BroadcastsInDim S16 (![] : Fin 0 → Fin S16.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S_S4096x4096 : S_.BroadcastsInDim S4096x4096 (![] : Fin 0 → Fin S4096x4096.rank)
  transposes_S4096x4096_S4096x4096_1_0 : S4096x4096.Transposes [1, 0] S4096x4096
  shapeCasts_S4x2048x4096_S8192x4096 : S4x2048x4096.ShapeCasts S8192x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S4x2048x4096 : S8192x4096.ShapeCasts S4x2048x4096
  dot_S4096x16_S16x4096_S4096x4096_1_0_0_1_n_n_wf : DotDims.WF S4096x16 S16x4096 S4096x4096 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v14) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S16 : Shape := ⟨1, ![16]⟩
abbrev S_ : Shape := ⟨0, ![]⟩
abbrev S1x16 : Shape := ⟨2, ![1, 16]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .i1⟩
  | .hbm, ⟨9, _⟩ => ⟨S16, .f32⟩
  | .hbm, ⟨10, _⟩ => ⟨S16, .f32⟩
  | .hbm, ⟨11, _⟩ => ⟨S1x16, .f32⟩
  | .hbm, ⟨12, _⟩ => ⟨S4096x16, .f32⟩
  | .hbm, ⟨13, _⟩ => ⟨S4096x16, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4x2048x4096, .f32⟩
  | .hbm, ⟨19, _⟩ => ⟨S4x2048x4096, .f32⟩
  | .hbm, ⟨20, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S_S4096x4096 : S_.BroadcastsInDim S4096x4096 (![] : Fin 0 → Fin S4096x4096.rank)
  dot_S4096x16_S16x4096_S4096x4096_1_0_0_1_n_n_wf : DotDims.WF S4096x16 S16x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KernelPieces.lean ====
/-
  What one grid point of the blocked matrix product leaves behind, as values.

  The kernel keeps a 1024×1024 accumulator across the four points of a run along the contraction axis.  At a run's
  first point it stores zeros, reads them back, and stores "zeros + a·b" for the point's two input blocks a, b; at the
  later points it stores "previous accumulator + a·b"; at the run's last point it also copies the accumulator it has
  just stored into the output block.  Each of these is ONE store covering the whole buffer, so what the buffer holds
  afterwards is that store's value.  At the extended reals the stored value at entry (p, q) is the previous value
  there plus ∑ₖ a(p,k)·b(k,q) over the block's 1024 contraction indices, and the zero block is 0 everywhere.
-/
import proofs.«122305_j40355512714080_1_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem
open Idealize.ShloMosaic.ValueIdx (ix2 eq_ix2)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A run's first point leaves "zero block + a·b" in the accumulator: the zero block stored, read back, updated. -/
theorem acc_first (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x1024 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle point leaves "previous accumulator + a·b". -/
theorem acc_mid (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 : Vec F S1024x1024 .bf16) (xs0 : Vec F S1024x1024 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S1024x1024) hz]

/-- A run's last point leaves the same in the accumulator, -/
theorem acc_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs0 : Vec F S1024x1024 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz]

/-- and copies it into the output block: the accumulator just stored, read back. -/
theorem out_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs0 : Vec F S1024x1024 .f32) :
    out0_C_2 c i a3 h3 a4 h4 a5 h5 a6 h6 hc0 hc1 x0 x1 xs0 = k0_pay2 xs0 x0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

/-! ## The two stored values at an entry, over the extended reals -/

/-- The zero block is 0 at every entry. -/
theorem zero_block_apply (j : S1024x1024.Idx) : k0_pay1 (F := Ideal) j = 0 := by
  unfold k0_pay1
  simp only [shapeCast_self]
  show Ideal.ofBits .f32 0x00000000#32 = 0
  exact Ideal.ofBits_zero_f32

theorem lhs_blockdot_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_blockdot_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_blockdot_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_blockdot_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product of a and b into a zero accumulator, at entry (p, q): ∑ₖ a(p,k)·b(k,q). -/
theorem blockdot_apply (a b : FVec Ideal S1024x1024 .bf16) (p q : Fin 1024) :
    matmul (F := Ideal) dot_S1024x1024_S1024x1024_S1024x1024_1_0_0_1_n_n none a b (constant (F := Ideal) S1024x1024 .f32 0x00000000#32) (ix2 p q)
      = ∑ k : Fin 1024, a (ix2 p k) * b (ix2 k q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_blockdot_0 _ _
    | ⟨1, _⟩ => exact (lhs_blockdot_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_blockdot_0 _ _).trans hk
    | ⟨1, _⟩ => exact rhs_blockdot_1 _ _)
  rw [el, er]

/-- The accumulator update at entry (p, q): the old value there plus ∑ₖ a(p,k)·b(k,q). -/
theorem update_apply (old : Vec Ideal S1024x1024 .f32) (a b : Vec Ideal S1024x1024 .bf16) (p q : Fin 1024) :
    k0_pay2 (F := Ideal) old a b (ix2 p q) = old (ix2 p q) + ∑ k : Fin 1024, a (ix2 p k) * b (ix2 k q) := by
  unfold k0_pay2
  simp only [shapeCast_self]
  exact congrArg (old (ix2 p q) + ·) (blockdot_apply a b p q)

end Cert.KernelIdeal.Pieces

end
-- ==== Proof.Algebra.lean ====
/-
  The arithmetic the certificate rests on, with no program in sight.

  Over the extended reals a product does not distribute over a sum in general (an infinite summand breaks it), but it
  does when the three numbers are real.  So a contraction of a real row against the entrywise sum of two real columns
  splits into the two contractions:  ∑ₖ xₖ·(wₖ + dₖ) = ∑ₖ xₖ·wₖ + ∑ₖ xₖ·dₖ.  Being real is closed under sums and
  products, which is how the low-rank correction (a finite sum of products of real entries) is seen to be real.

  A contraction over a long axis is also the sum of its consecutive blocks of 1024 terms: the partial sum over the
  first k+1 blocks is the partial sum over the first k plus block k.
-/
import Idealize.ShloMosaic.PureOps.Ideal
import Mathlib.Algebra.BigOperators.Fin

open scoped BigOperators

namespace Cert.Alg

/-- An extended real that is a real number (neither infinity). -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A finite sum of reals is real. -/
theorem IsReal.sum {ι : Type} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- On real numbers a product distributes over a sum. -/
theorem mul_add_of_real {x w d : EReal} (hx : IsReal x) (hw : IsReal w) (hd : IsReal d) :
    x * (w + d) = x * w + x * d := by
  obtain ⟨a, rfl⟩ := hx
  obtain ⟨b, rfl⟩ := hw
  obtain ⟨c, rfl⟩ := hd
  rw [← EReal.coe_add, ← EReal.coe_mul, mul_add, EReal.coe_add, EReal.coe_mul, EReal.coe_mul]

/-- A real row contracted against the entrywise sum of two real columns is the sum of the two contractions. -/
theorem sum_mul_add {ι : Type} [Fintype ι] (x w d : ι → EReal) (hx : ∀ i, IsReal (x i)) (hw : ∀ i, IsReal (w i))
    (hd : ∀ i, IsReal (d i)) : ∑ i, x i * (w i + d i) = ∑ i, x i * w i + ∑ i, x i * d i := by
  rw [← Finset.sum_add_distrib]
  exact Finset.sum_congr rfl fun i _ => mul_add_of_real (hx i) (hw i) (hd i)

/-- The first k+1 blocks of 1024 terms are the first k blocks and then block k. -/
theorem sum_range_block (f : ℕ → EReal) (k : ℕ) :
    ∑ d ∈ Finset.range ((k + 1) * 1024), f d
      = ∑ d ∈ Finset.range (k * 1024), f d + ∑ dd : Fin 1024, f (k * 1024 + dd.val) := by
  rw [show (k + 1) * 1024 = k * 1024 + 1024 by ring, Finset.sum_range_add]
  exact congrArg (_ + ·) (Finset.sum_range fun x => f (k * 1024 + x))

end Cert.Alg
-- ==== Proof.KernelAcc.lean ====
/-
  The accumulator along a run, as a partial contraction.

  The grid is 8 × 4 × 4: point t = 16·I + 4·J + k works on row block I of the left operand (8192 × 4096), column block
  J of the right operand (4096 × 4096) and contraction block k.  Its two input blocks are the 1024 × 1024 tiles
  L[1024·I + p, 1024·k + d] and R[1024·k + d, 1024·J + q].  By induction on the point, after point t the accumulator
  holds at entry (p, q) the contraction of row 1024·I + p of L against column 1024·J + q of R over the first
  1024·(k+1) contraction indices: the first point of a run starts from zero, every later point adds its block to what
  the point before left.
-/
import proofs.«122305_j40355512714080_1_alg».proof.Proof.KernelPieces
import proofs.«122305_j40355512714080_1_alg».proof.Proof.Algebra

noncomputable section

open Idealize.ShloMosaic Idealize.ShloMosaic.TcCoe Idealize.SL.Sem
open Idealize.ShloMosaic.ValueIdx (ix2 eq_ix2)

namespace Cert.KernelIdeal.Acc

open Cert.KernelIdeal Cert.KernelIdeal.Gen Cert.KernelIdeal.Pieces

variable (m : (ℓ : Loc nD τ sig) → Buf (Elt Ideal) ℓ)

/-- The two operand arrays as the region finds them, and a point's two input blocks. -/
abbrev lhsArr (c : Dev nD) : Vec Ideal S8192x4096 .bf16 := V m c main_v14
abbrev rhsArr (c : Dev nD) : Vec Ideal S4096x4096 .bf16 := V m c main_v15
abbrev lhsBlk (c : Dev nD) (t : Fin cfg0.N) : Vec Ideal S1024x1024 .bf16 := iblk m c 0 t
abbrev rhsBlk (c : Dev nD) (t : Fin cfg0.N) : Vec Ideal S1024x1024 .bf16 := iblk m c 1 t

/-- The operands' entries by natural-number coordinates (0 outside the array, which no statement below meets). -/
def lhsAt (c : Dev nD) (r d : ℕ) : EReal := if h : r < 8192 ∧ d < 4096 then lhsArr m c (ix2 ⟨r, h.1⟩ ⟨d, h.2⟩) else 0
def rhsAt (c : Dev nD) (d o : ℕ) : EReal := if h : d < 4096 ∧ o < 4096 then rhsArr m c (ix2 ⟨d, h.1⟩ ⟨o, h.2⟩) else 0

/-- Which block each window is on at point t: (I, k), (k, J), (I, J) for t = 16·I + 4·J + k. -/
theorem block_of_point : ∀ t : Fin cfg0.N, win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

/-- The left block at point t, entry (p, d): L[1024·I + p, 1024·k + d]. -/
theorem lhsBlk_apply (c : Dev nD) (t : Fin cfg0.N) (p d : Fin 1024) :
    lhsBlk m c t (ix2 p d) = lhsAt m c (t.val / 16 * 1024 + p.val) (t.val % 4 * 1024 + d.val) := by
  have hN : t.val < 128 := lt_of_lt_of_eq t.isLt (show cfg0.N = 128 from N_0)
  obtain ⟨e0, e1, -, -, -, -⟩ := block_of_point t
  unfold lhsAt
  rw [dif_pos ⟨by omega, by omega⟩]
  unfold lhsBlk iblk
  rw [View.read_apply]
  show V m c main_v14 (((cfg0.win 0).blk t).view.emb (ix2 p d)) = V m c main_v14 _
  refine congrArg (V m c main_v14) (funext fun a => Fin.ext ?_)
  match a with
  | ⟨0, _⟩ => show win0_0.index t (0 : Fin 2) * 1024 + 1 * p.val = t.val / 16 * 1024 + p.val; rw [e0]; omega
  | ⟨1, _⟩ => show win0_0.index t (1 : Fin 2) * 1024 + 1 * d.val = t.val % 4 * 1024 + d.val; rw [e1]; omega

/-- The right block at point t, entry (d, q): R[1024·k + d, 1024·J + q]. -/
theorem rhsBlk_apply (c : Dev nD) (t : Fin cfg0.N) (d q : Fin 1024) :
    rhsBlk m c t (ix2 d q) = rhsAt m c (t.val % 4 * 1024 + d.val) (t.val / 4 % 4 * 1024 + q.val) := by
  have hN : t.val < 128 := lt_of_lt_of_eq t.isLt (show cfg0.N = 128 from N_0)
  obtain ⟨-, -, e0, e1, -, -⟩ := block_of_point t
  unfold rhsAt
  rw [dif_pos ⟨by omega, by omega⟩]
  unfold rhsBlk iblk
  rw [View.read_apply]
  show V m c main_v15 (((cfg0.win 1).blk t).view.emb (ix2 d q)) = V m c main_v15 _
  refine congrArg (V m c main_v15) (funext fun a => Fin.ext ?_)
  match a with
  | ⟨0, _⟩ => show win0_1.index t (0 : Fin 2) * 1024 + 1 * d.val = t.val % 4 * 1024 + d.val; rw [e0]; omega
  | ⟨1, _⟩ => show win0_1.index t (1 : Fin 2) * 1024 + 1 * q.val = t.val / 4 % 4 * 1024 + q.val; rw [e1]; omega

/-- The contraction of row r of L against column o of R over the first K contraction indices. -/
def partialDot (c : Dev nD) (r o K : ℕ) : EReal := ∑ d ∈ Finset.range K, lhsAt m c r d * rhsAt m c d o

/-- One point's update: the partial contraction over k blocks plus block k is the one over k + 1 blocks. -/
theorem partialDot_step (c : Dev nD) (t : Fin cfg0.N) (p q : Fin 1024) (old : EReal)
    (hold : old = partialDot m c (t.val / 16 * 1024 + p.val) (t.val / 4 % 4 * 1024 + q.val) (t.val % 4 * 1024)) :
    old + ∑ k : Fin 1024, lhsBlk m c t (ix2 p k) * rhsBlk m c t (ix2 k q)
      = partialDot m c (t.val / 16 * 1024 + p.val) (t.val / 4 % 4 * 1024 + q.val) ((t.val % 4 + 1) * 1024) := by
  unfold partialDot at hold ⊢
  rw [Cert.Alg.sum_range_block, hold]
  refine congrArg (_ + ·) (Finset.sum_congr rfl fun k _ => ?_)
  rw [lhsBlk_apply, rhsBlk_apply]

/-- What point t leaves in the accumulator at entry (p, q): its block's contraction added to zero at a run's first
    point, to what the point before left otherwise. -/
theorem point_acc (c : Dev nD) (t : Fin cfg0.N) (p q : Fin 1024) :
    (outsAt0 m c t.val t.isLt).2 (ix2 p q)
      = (if t.val % 4 = 0 then (0 : EReal)
          else (outsAt0 m c (t.val - 1) (Nat.lt_of_le_of_lt (Nat.sub_le _ _) t.isLt)).2 (ix2 p q))
        + ∑ k : Fin 1024, lhsBlk m c t (ix2 p k) * rhsBlk m c t (ix2 k q) := by
  by_cases h0 : t.val % 4 = 0
  · have h1 : ¬t.val % 4 = 3 := by omega
    rw [if_pos h0, outsAt0_A m c t h0 h1]
    dsimp only
    refine (congrFun (acc_first (F := Ideal) c (grid0.coords t) (ms0_0 t) (hs0_0 t) (ms0_1 t) (hs0_1 t) (ms0_2 t) (hs0_2 t)
      scM0_0 (Memref.isWhole_whole _) ((hcond0_0 t).mpr h0) (fun h => h1 ((hcond0_1 t).mp h)) (iblk m c 0 t) (iblk m c 1 t)) (ix2 p q)).trans ?_
    refine (update_apply (k0_pay1 (F := Ideal)) (lhsBlk m c t) (rhsBlk m c t) p q).trans ?_
    rw [zero_block_apply]
  · rw [if_neg h0]
    by_cases h1 : t.val % 4 = 3
    · rw [outsAt0_C m c t h0 h1]
      dsimp only
      refine (congrFun (acc_last (F := Ideal) c (grid0.coords t) (ms0_0 t) (hs0_0 t) (ms0_1 t) (hs0_1 t) (ms0_2 t) (hs0_2 t)
        scM0_0 (Memref.isWhole_whole _) (fun h => h0 ((hcond0_0 t).mp h)) ((hcond0_1 t).mpr h1) (iblk m c 0 t) (iblk m c 1 t)
        (outsAt0 m c (t.val - 1) (Nat.lt_of_le_of_lt (Nat.sub_le _ _) t.isLt)).2) (ix2 p q)).trans ?_
      exact update_apply (outsAt0 m c (t.val - 1) (Nat.lt_of_le_of_lt (Nat.sub_le _ _) t.isLt)).2 (lhsBlk m c t) (rhsBlk m c t) p q
    · rw [outsAt0_B m c t h0 h1]
      dsimp only
      refine (congrFun (acc_mid (F := Ideal) c (grid0.coords t) (ms0_0 t) (hs0_0 t) (ms0_1 t) (hs0_1 t) (ms0_2 t) (hs0_2 t)
        scM0_0 (Memref.isWhole_whole _) (fun h => h0 ((hcond0_0 t).mp h)) (fun h => h1 ((hcond0_1 t).mp h)) (iblk m c 0 t) (iblk m c 1 t)
        (outsAt0 m c (t.val - 1) (Nat.lt_of_le_of_lt (Nat.sub_le _ _) t.isLt)).2) (ix2 p q)).trans ?_
      exact update_apply (outsAt0 m c (t.val - 1) (Nat.lt_of_le_of_lt (Nat.sub_le _ _) t.isLt)).2 (lhsBlk m c t) (rhsBlk m c t) p q

/-- THE INVARIANT.  After point n = 16·I + 4·J + k the accumulator's entry (p, q) is the contraction of row 1024·I + p
    against column 1024·J + q over the first 1024·(k + 1) indices. -/
theorem acc_inv (c : Dev nD) : ∀ (n : ℕ) (h : n < cfg0.N) (p q : Fin 1024),
    (outsAt0 m c n h).2 (ix2 p q)
      = partialDot m c (n / 16 * 1024 + p.val) (n / 4 % 4 * 1024 + q.val) ((n % 4 + 1) * 1024) := by
  intro n
  induction n with
  | zero =>
    intro h p q
    refine (point_acc m c ⟨0, h⟩ p q).trans ?_
    rw [if_pos (show (0 : ℕ) % 4 = 0 from rfl)]
    exact partialDot_step m c ⟨0, h⟩ p q 0 (by
      unfold partialDot
      show (0 : EReal) = ∑ d ∈ Finset.range (0 % 4 * 1024), _
      rw [show (0 : ℕ) % 4 * 1024 = 0 from rfl, Finset.range_zero, Finset.sum_empty])
  | succ n ih =>
    intro h p q
    have hN : n + 1 < 128 := lt_of_lt_of_eq h (show cfg0.N = 128 from N_0)
    refine (point_acc m c ⟨n + 1, h⟩ p q).trans ?_
    by_cases h0 : (n + 1) % 4 = 0
    · rw [if_pos h0]
      exact partialDot_step m c ⟨n + 1, h⟩ p q 0 (by
        unfold partialDot
        show (0 : EReal) = ∑ d ∈ Finset.range ((n + 1) % 4 * 1024), _
        rw [h0, Nat.zero_mul, Finset.range_zero, Finset.sum_empty])
    · rw [if_neg h0]
      refine partialDot_step m c ⟨n + 1, h⟩ p q _ ?_
      show (outsAt0 m c n _).2 (ix2 p q) = partialDot m c ((n + 1) / 16 * 1024 + p.val) ((n + 1) / 4 % 4 * 1024 + q.val) ((n + 1) % 4 * 1024)
      rw [ih (Nat.lt_of_succ_lt h) p q]
      have e1 : (n + 1) / 16 = n / 16 := by omega
      have e2 : (n + 1) / 4 % 4 = n / 4 % 4 := by omega
      have e3 : (n + 1) % 4 = n % 4 + 1 := by omega
      rw [e1, e2, e3]

/-- Over all 4096 contraction indices the partial contraction is the full one, written over the arrays' own indices. -/
theorem partialDot_full (c : Dev nD) (r o : ℕ) (hr : r < 8192) (ho : o < 4096) :
    partialDot m c r o 4096 = ∑ d : Fin 4096, lhsArr m c (ix2 ⟨r, hr⟩ d) * rhsArr m c (ix2 d ⟨o, ho⟩) := by
  unfold partialDot
  rw [Finset.sum_range]
  refine Finset.sum_congr rfl fun d _ => ?_
  unfold lhsAt rhsAt
  rw [dif_pos ⟨hr, d.isLt⟩, dif_pos ⟨d.isLt, ho⟩]

/-- At a run's last point the output block is the accumulator just stored. -/
theorem out_eq_acc (c : Dev nD) (t : Fin cfg0.N) (h1 : t.val % 4 = 3) :
    (outsAt0 m c t.val t.isLt).1 = (outsAt0 m c t.val t.isLt).2 := by
  have h0 : ¬t.val % 4 = 0 := by omega
  rw [outsAt0_C m c t h0 h1]
  dsimp only
  exact (out_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).trans
    (acc_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).symm

/-- So the block written back at a run's last point t = 16·I + 4·J + 3 holds, at (p, q), the full contraction of
    row 1024·I + p of L against column 1024·J + q of R. -/
theorem out_block_apply (c : Dev nD) (t : Fin cfg0.N) (h1 : t.val % 4 = 3) (p q : Fin 1024)
    (hr : t.val / 16 * 1024 + p.val < 8192) (ho : t.val / 4 % 4 * 1024 + q.val < 4096) :
    (outsAt0 m c t.val t.isLt).1 (ix2 p q)
      = ∑ d : Fin 4096, lhsArr m c (ix2 ⟨t.val / 16 * 1024 + p.val, hr⟩ d) * rhsArr m c (ix2 d ⟨t.val / 4 % 4 * 1024 + q.val, ho⟩) := by
  rw [out_eq_acc m c t h1, acc_inv m c t.val t.isLt p q, h1]
  exact partialDot_full m c _ _ hr ho

end Cert.KernelIdeal.Acc

end
-- ==== Proof.KernelValue.lean ====
/-
  What the kernel's program computes, as one function of its five arguments.

  The region's result array (8192 × 4096) is the whole matrix product L·R: every entry lies in exactly one output block,
  the block of (I, J) is written back once, at the last point of its run, and by then the accumulator holds the full
  contraction.  Before the region the host lines make L from x by merging the two leading axes (row 2048·b + s of L is
  x[b, s, ·]) and R as the transpose of weight + correction (R[d, o] = W[o, d] + Δ[o, d]); a change of float format is
  the identity on the extended reals.  After the region the host splits the rows again.  So the result at (b, s, o) is
  ∑_d x[b, s, d] · (W[o, d] + Δ[o, d]).
-/
import proofs.«122305_j40355512714080_1_alg».proof.Proof.KernelAcc
import Idealize.ShloMosaic.Lib.StableHlo.Run
import Idealize.ShloMosaic.Lib.ValueLayout

noncomputable section

open Idealize.ShloMosaic Idealize.ShloMosaic.TcCoe Idealize.SL.Sem Idealize.ShloMosaic.StableHlo
open Idealize.ShloMosaic.ValueIdx (ix2 ix3 eq_ix2 eq_ix3)
open Idealize.ShloMosaic.Pipeline (Dat)

namespace Cert.KernelIdeal

variable {F : FTy → Type} [FloatOps F] [Facts]
open Facts₀ Facts

/-- The low-rank correction Δ as the host computes it from lora_A (16 × 4096), lora_B (4096 × 16) and the 16 singular
    values: B's columns scaled by the masked singular values, times A, times the scaling constant. -/
def lowRank (xa : FVec F S16x4096 .f32) (xb : FVec F S4096x16 .f32) (xs : FVec F S16 .f32) : FVec F S4096x4096 .f32 :=
  mulf (Host.dotGeneral dot_S4096x16_S16x4096_S4096x4096_1_0_0_1_n_n none
      (mulf xb (broadcastInDim S4096x16 ![0, 1] bcast_S1x16_S4096x16_0_1 (broadcastInDim S1x16 ![1] bcast_S16_S1x16_1
        (mulf xs (uitofp .f32 (cmpf .oge (Host.absf xs) (broadcastInDim S16 ![] bcast_S_S16 (constant (F := F) S_ .f32 0x3C23D70A#32))))))))
      xa)
    (broadcastInDim S4096x4096 ![] bcast_S_S4096x4096 (constant (F := F) S_ .f32 0x3F800000#32))

end Cert.KernelIdeal

namespace Cert.KernelIdeal.Result

open Cert.KernelIdeal Cert.KernelIdeal.Gen Cert.KernelIdeal.Pieces Cert.KernelIdeal.Acc

variable (m : (ℓ : Loc nD τ sig) → Buf (Elt Ideal) ℓ) (ρ : Dev nD → PrngReg)

/-- The five argument arrays at their literal types, and the correction Δ of the last three. -/
abbrev xArg (c : Dev nD) : FVec Ideal S4x2048x4096 .f32 := m ((c : Thread nD τ).loc main_arg0)
abbrev wArg (c : Dev nD) : FVec Ideal S4096x4096 .f32 := m ((c : Thread nD τ).loc main_arg1)
abbrev aArg (c : Dev nD) : FVec Ideal S16x4096 .f32 := m ((c : Thread nD τ).loc main_arg2)
abbrev bArg (c : Dev nD) : FVec Ideal S4096x16 .f32 := m ((c : Thread nD τ).loc main_arg3)
abbrev sArg (c : Dev nD) : FVec Ideal S16 .f32 := m ((c : Thread nD τ).loc main_arg4)
abbrev delta (c : Dev nD) : FVec Ideal S4096x4096 .f32 := lowRank (F := Ideal) (aArg m c) (bArg m c) (sArg m c)

/-! ## The region's result array is the whole product -/

/-- The product L·R, entry by entry. -/
def prod (c : Dev nD) : Vec Ideal S8192x4096 .f32 :=
  fun i => ∑ d : Fin 4096, lhsArr m c (ix2 (i 0) d) * rhsArr m c (ix2 d (i 1))

/-- Entry j of the block written back at a run's last point t is the product's entry at the block's offset plus j. -/
theorem out_block_eq (c : Dev nD) (t : Fin cfg0.N) (h1 : t.val % 4 = 3) (j : S1024x1024.Idx) (i : S8192x4096.Idx)
    (hi0 : (i 0).val = t.val / 16 * 1024 + (j 0).val) (hi1 : (i 1).val = t.val / 4 % 4 * 1024 + (j 1).val) :
    (outsAt0 m c t.val t.isLt).1 j = prod m c i := by
  have hN : t.val < 128 := lt_of_lt_of_eq t.isLt (show cfg0.N = 128 from N_0)
  have hj0 : (j 0).val < 1024 := ValueIdx.idx2_lt0 j
  have hj1 : (j 1).val < 1024 := ValueIdx.idx2_lt1 j
  have hr : t.val / 16 * 1024 + (j 0).val < 8192 := by omega
  have ho : t.val / 4 % 4 * 1024 + (j 1).val < 4096 := by omega
  have hj : j = ix2 (⟨(j 0).val, hj0⟩ : Fin 1024) (⟨(j 1).val, hj1⟩ : Fin 1024) :=
    funext fun a => match a with | ⟨0, _⟩ => rfl | ⟨1, _⟩ => rfl
  rw [hj, out_block_apply m c t h1 ⟨(j 0).val, hj0⟩ ⟨(j 1).val, hj1⟩ hr ho]
  unfold prod
  have e0 : i 0 = ⟨_, hr⟩ := Fin.ext hi0
  have e1 : i 1 = ⟨_, ho⟩ := Fin.ext hi1
  rw [e0, e1]
  rfl

/-- What a flushing point writes back is its block of the product. -/
theorem flushed_eq (c : Dev nD) (t : Fin cfg0.N) (hf : (cfg0.win 2).flush t = true) :
    (dats m 0 c).flushed 2 t = ((cfg0.win 2).blk t).view.read (Elt Ideal) (prod m c) := by
  have h3 : t.val % 4 = 3 := (flush0_2 t).mp hf
  obtain ⟨-, -, -, -, e0, e1⟩ := block_of_point t
  show (cfg0.win 2).cut (grid0.coords t) ((dats m 0 c).after 2 t) = _
  rw [after0_2]
  funext j
  show (outsAt0 m c t.val t.isLt).1 j = prod m c (((cfg0.win 2).blk t).view.emb j)
  refine out_block_eq m c t h3 j _ ?_ ?_
  · show win0_2.index t (0 : Fin 2) * 1024 + 1 * (j 0).val = _
    rw [e0]; omega
  · show win0_2.index t (1 : Fin 2) * 1024 + 1 * (j 1).val = _
    rw [e1]; omega

/-- Every entry of the result array lies in the block of some flushing point: (I, J) = (i₀ / 1024, i₁ / 1024). -/
theorem cover (i : S8192x4096.Idx) :
    ∃ t : Fin cfg0.N, (cfg0.win 2).flush t = true ∧ i ∈ ((cfg0.win 2).blk t).view.set := by
  have hi0 : (i 0).val < 8192 := ValueIdx.idx2_lt0 i
  have hi1 : (i 1).val < 4096 := ValueIdx.idx2_lt1 i
  have hN : cfg0.N = 128 := N_0
  obtain ⟨t, ht⟩ : ∃ t : Fin cfg0.N, t.val = (i 0).val / 1024 * 16 + (i 1).val / 1024 * 4 + 3 :=
    ⟨⟨(i 0).val / 1024 * 16 + (i 1).val / 1024 * 4 + 3, by rw [hN]; omega⟩, rfl⟩
  obtain ⟨-, -, -, -, e0, e1⟩ := block_of_point t
  refine ⟨t, (flush0_2 t).mpr (by omega), ?_⟩
  show i ∈ ((View.whole main_v16).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e0]; omega
  | ⟨1, _⟩ =>
    show win0_2.index t (1 : Fin 2) * 1024 ≤ (i 1).val ∧ (i 1).val < win0_2.index t (1 : Fin 2) * 1024 + 1024
    rw [e1]; omega

/-- So the region's result array ends holding the product. -/
theorem final_out (c : Dev nD) : (dats m 0 c).arrAt 2 cfg0.N = prod m c :=
  (dats m 0 c).arrAt_eq_of_cover 2 (prod m c) (flushed_eq m c) cover

/-! ## The host lines before the region -/

/-- L is x with its two leading axes merged (the change of format is the identity). -/
theorem lhsArr_eq (c : Dev nD) :
    (lhsArr m c : FVec Ideal S8192x4096 .bf16)
      = truncf (F := Ideal) .bf16 (shapeCast S8192x4096 (xArg m c) shapeCasts_S4x2048x4096_S8192x4096) bitsLt_bf16_f32 := by
  show StableHlo.after hostOps0 (fun b => m (c, b)) (Proc.devRef .tc main_v14) = _
  after_results
  rfl

/-- R is the transpose of weight + correction. -/
theorem rhsArr_eq (c : Dev nD) :
    (rhsArr m c : FVec Ideal S4096x4096 .bf16)
      = truncf (F := Ideal) .bf16 (transpose S4096x4096 [1, 0] (addf (wArg m c) (delta m c))
          transposes_S4096x4096_S4096x4096_1_0) bitsLt_bf16_f32 := by
  show StableHlo.after hostOps0 (fun b => m (c, b)) (Proc.devRef .tc main_v15) = _
  after_results
  rfl

/-- Row 2048·b + s of L is x[b, s, ·]. -/
theorem lhsArr_apply (c : Dev nD) (b : Fin 4) (s : Fin 2048) (d : Fin 4096) (r : Fin 8192) (hr : r.val = b.val * 2048 + s.val) :
    lhsArr m c (ix2 r d) = xArg m c (ix3 b s d) := by
  refine (congrFun (lhsArr_eq m c) (ix2 r d)).trans ?_
  show shapeCast S8192x4096 (xArg m c) shapeCasts_S4x2048x4096_S8192x4096 (ix2 r d) = _
  refine shapeCast_apply _ _ _ _ ?_
  rw [Shape.rowMajor_val_three, Shape.rowMajor_val_two]
  show (b.val * 2048 + s.val) * 4096 + d.val = r.val * 4096 + d.val
  rw [hr]

/-- R[d, o] = W[o, d] + Δ[o, d]. -/
theorem rhsArr_apply (c : Dev nD) (d o : Fin 4096) :
    rhsArr m c (ix2 d o) = wArg m c (ix2 o d) + delta m c (ix2 o d) := by
  refine (congrFun (rhsArr_eq m c) (ix2 d o)).trans ?_
  show transpose S4096x4096 [1, 0] (addf (wArg m c) (delta m c)) transposes_S4096x4096_S4096x4096_1_0 (ix2 d o) = _
  rw [ValueIdx.transpose_ix2_apply]
  rfl

/-! ## The program's result -/

/-- The result as a function of the arguments: ∑_d x[b, s, d] · (W[o, d] + Δ[o, d]). -/
def result (c : Dev nD) : FVec Ideal S4x2048x4096 .f32 := fun i =>
  ∑ d : Fin 4096, xArg m c (ix3 (i 0) (i 1) d) * (wArg m c (ix2 (i 2) d) + delta m c (ix2 (i 2) d))

/-- The product with its rows split back into (b, s) is that function. -/
theorem split_prod_eq (c : Dev nD) :
    shapeCast S4x2048x4096 (prod m c) shapeCasts_S8192x4096_S4x2048x4096 = result m c := by
  funext i
  have h0 : (i 0).val < 4 := (i 0).isLt
  have h1 : (i 1).val < 2048 := (i 1).isLt
  have hr : (i 0).val * 2048 + (i 1).val < 8192 := by omega
  rw [shapeCast_apply (prod m c) shapeCasts_S8192x4096_S4x2048x4096 i (ix2 ⟨(i 0).val * 2048 + (i 1).val, hr⟩ (i 2)) (by
    rw [Shape.rowMajor_val_three, Shape.rowMajor_val_two]; rfl)]
  unfold prod result
  refine Finset.sum_congr rfl fun d _ => ?_
  exact congrArg₂ (fun a b : EReal => a * b)
    (lhsArr_apply m c (i 0) (i 1) d ⟨(i 0).val * 2048 + (i 1).val, hr⟩ rfl) (rhsArr_apply m c d (i 2))

/-- The host line after the region leaves the product with its rows split. -/
theorem tail_eq (c : Dev nD) :
    Pipeline.afterTail₀ cfgs (dats m) 0 (V0 m) [hostOps1] c main_v17 = result m c := by
  unfold Pipeline.afterTail₀
  show StableHlo.after hostOps1 _ (Proc.devRef .tc main_v17) = _
  after_results
  have e : Pipeline.withArrays (cfgs 0).spec c (V0 m c) (fun w => (dats m 0 c).arrAt w (cfgs 0).N) (Proc.devRef .tc main_v16) = prod m c :=
    (Pipeline.withArrays_arr spec0 launch0.win.arr_inj c _ _ 2).trans (final_out m c)
  rw [e]
  exact split_prod_eq m c

/-- THE RUN, READ: every weakly fair execution ends with the result buffer at `result` and the arguments unchanged. -/
theorem run : θ_run defs (onTc (τ := τ) (main (F := Ideal))) ⟨m, fun _ => 0, ρ⟩ fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v17 (Pipeline.mem_restRefs_of main_v17 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefSide.lean ====
/-
  The reference, read at an entry, and the law that joins it to the kernel.

  The reference computes x·Wᵀ and x·Δᵀ separately and adds them: at (b, s, o) it is
  ∑_d x[b,s,d]·W[o,d] + ∑_d x[b,s,d]·Δ[o,d], where Δ[o,d] = (∑_r (B[o,r]·σ'[r])·A[r,d])·1 and σ' is σ with the entries
  below the threshold masked to 0 (the mask is a 0/1 word converted to a float, so it is real whatever the compare
  says).  When x, W, A, B, σ are real so is Δ — a finite sum of products of reals, times the real 1 — and the two
  contractions merge into ∑_d x[b,s,d]·(W[o,d] + Δ[o,d]) by distributivity on the reals.
-/
import proofs.«122305_j40355512714080_1_alg».proof.Proof.Gen.ReferenceIdeal.Run
import proofs.«122305_j40355512714080_1_alg».proof.Proof.Gen.ReferenceIdeal.Read
import proofs.«122305_j40355512714080_1_alg».proof.Proof.Algebra
import Idealize.ShloMosaic.Lib.IdealHost

noncomputable section

open Idealize.ShloMosaic Idealize.ShloMosaic.TcCoe Idealize.SL.Sem Cert.Alg
open Idealize.ShloMosaic.ValueIdx (ix2 ix3)

namespace Cert.ReferenceIdeal.RefValue

open Cert.ReferenceIdeal Cert.ReferenceIdeal.Gen Cert.ReferenceIdeal.Read

/-- The correction Δ is real at every entry when lora_A, lora_B and the singular values are. -/
theorem delta_real (x2 : FVec Ideal S16x4096 .f32) (x3 : FVec Ideal S4096x16 .f32) (x4 : FVec Ideal S16 .f32)
    (h2 : ∀ i, IsReal (x2 i)) (h3 : ∀ i, IsReal (x3 i)) (h4 : ∀ i, IsReal (x4 i)) (i : S4096x4096.Idx) :
    IsReal (val_main_v10 (F := Ideal) x2 x3 x4 i) := by
  rw [val_main_v10_apply, Ideal.mulf_def]
  refine IsReal.mul ?_ ?_
  · rw [val_main_v8_apply]
    refine IsReal.sum _ _ fun k _ => IsReal.mul ?_ (h2 _)
    rw [val_main_v7_apply, Ideal.mulf_def]
    refine IsReal.mul (h3 _) ?_
    rw [val_main_v6_apply, val_main_v5_apply, val_main_v4_apply, Ideal.mulf_def]
    refine IsReal.mul (h4 _) ?_
    rw [val_main_v3_apply]
    exact IsReal.coe _
  · rw [val_main_v9_apply, val_main_cst_0_apply, Ideal.ofBits_def, Ideal.ofBits_one_f32]
    exact ⟨1, EReal.coe_one.symm⟩

/-- The reference's result at (b, s, o): the two contractions, added. -/
theorem ref_apply (x0 : FVec Ideal S4x2048x4096 .f32) (x1 : FVec Ideal S4096x4096 .f32) (x2 : FVec Ideal S16x4096 .f32)
    (x3 : FVec Ideal S4096x16 .f32) (x4 : FVec Ideal S16 .f32) (i : S4x2048x4096.Idx) :
    val_main_v13 (F := Ideal) x0 x1 x2 x3 x4 i
      = (∑ k : Fin 4096, x0 (ix3 (i 0) (i 1) k) * x1 (ix2 (i 2) k))
        + ∑ k : Fin 4096, x0 (ix3 (i 0) (i 1) k) * val_main_v10 (F := Ideal) x2 x3 x4 (ix2 (i 2) k) := by
  have el : ∀ k, lidx_main_v11 i k = ix3 (i 0) (i 1) k := fun k => funext fun a =>
    match a with | ⟨0, _⟩ => rfl | ⟨1, _⟩ => rfl | ⟨2, _⟩ => rfl
  have er : ∀ k, ridx_main_v11 i k = ix2 (i 2) k := fun k => funext fun a =>
    match a with | ⟨0, _⟩ => rfl | ⟨1, _⟩ => rfl
  have el' : ∀ k, lidx_main_v12 i k = ix3 (i 0) (i 1) k := fun k => funext fun a =>
    match a with | ⟨0, _⟩ => rfl | ⟨1, _⟩ => rfl | ⟨2, _⟩ => rfl
  have er' : ∀ k, ridx_main_v12 i k = ix2 (i 2) k := fun k => funext fun a =>
    match a with | ⟨0, _⟩ => rfl | ⟨1, _⟩ => rfl
  rw [val_main_v13_apply, Ideal.addf_def, val_main_v11_apply, val_main_v12_apply]
  simp only [el, er, el', er']
  rfl

/-- With real arguments the reference's result is one contraction against W + Δ. -/
theorem ref_eq_merged (x0 : FVec Ideal S4x2048x4096 .f32) (x1 : FVec Ideal S4096x4096 .f32) (x2 : FVec Ideal S16x4096 .f32)
    (x3 : FVec Ideal S4096x16 .f32) (x4 : FVec Ideal S16 .f32)
    (h0 : ∀ i, IsReal (x0 i)) (h1 : ∀ i, IsReal (x1 i)) (h2 : ∀ i, IsReal (x2 i)) (h3 : ∀ i, IsReal (x3 i))
    (h4 : ∀ i, IsReal (x4 i)) (i : S4x2048x4096.Idx) :
    val_main_v13 (F := Ideal) x0 x1 x2 x3 x4 i
      = ∑ k : Fin 4096, x0 (ix3 (i 0) (i 1) k) * (x1 (ix2 (i 2) k) + val_main_v10 (F := Ideal) x2 x3 x4 (ix2 (i 2) k)) := by
  rw [ref_apply]
  exact (sum_mul_add (fun k : Fin 4096 => x0 (ix3 (i 0) (i 1) k)) (fun k => x1 (ix2 (i 2) k))
    (fun k => val_main_v10 (F := Ideal) x2 x3 x4 (ix2 (i 2) k)) (fun k => h0 _) (fun k => h1 _)
    (fun k => delta_real x2 x3 x4 h2 h3 h4 _)).symm

end Cert.ReferenceIdeal.RefValue

end
-- ==== Proof.Finite.lean ====
/-
  From the precondition to real entries.

  The precondition says, for each of the five float arguments, that every entry's absolute value is below +∞.  On the
  extended reals |a| is max a (−a), which is +∞ at both infinities, so an entry that passes the test is a real number.
-/
import proofs.«122305_j40355512714080_1_alg».proof.Pre_finite_inputs
import proofs.«122305_j40355512714080_1_alg».proof.Proof.Algebra
import Idealize.ShloMosaic.Lib.ReduceAll
import Idealize.ShloMosaic.Lib.Affine
import Idealize.ShloMosaic.Lib.ValueIdx
import Idealize.ShloMosaic.PureOps.Ideal.Laws

noncomputable section

open Idealize.ShloMosaic Cert.Alg

namespace Cert.Pre_finite_inputs.Real

open Cert.Pre_finite_inputs

instance : Subsingleton S_.Idx := ⟨fun a b => funext fun d => d.elim0⟩

/-- The f32 pattern 0x7F800000 is +∞. -/
theorem ofBits_inf : Ideal.ofBits .f32 0x7F800000#32 = ⊤ := by simp [Ideal.ofBits, Ideal.ieee]

/-- An extended real whose absolute value compares below +∞ is real. -/
theorem real_of_abs_lt (a : EReal)
    (h : FloatOps.cmpf (F := Ideal) (φ := .f32) .olt (FloatOps.hostAbsf (F := Ideal) (φ := .f32) a) (FloatOps.ofBits (F := Ideal) .f32 0x7F800000#32) = 1#1) :
    IsReal a := by
  rw [Ideal.cmpf_def, Ideal.hostAbsf_def, Ideal.absf_def, Ideal.ofBits_def, ofBits_inf] at h
  have hlt : max a (-a) < ⊤ := by
    by_contra hn
    have h0 : Ideal.cmp .olt (max a (-a)) ⊤ = 0#1 := by
      unfold Ideal.cmp
      dsimp only
      rw [decide_eq_false hn]
      rfl
    rw [h0] at h
    exact absurd h (by decide)
  induction a using EReal.rec with
  | bot => simp at hlt
  | top => simp at hlt
  | coe r => exact ⟨r, rfl⟩

variable [Facts]
open Facts

/-- Under the precondition every entry of every argument is a real number. -/
theorem real_of_pre (x0 : FVec Ideal S4x2048x4096 .f32) (x1 : FVec Ideal S4096x4096 .f32) (x2 : FVec Ideal S16x4096 .f32)
    (x3 : FVec Ideal S4096x16 .f32) (x4 : FVec Ideal S16 .f32) (h : fn (F := Ideal) x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have h' := congrFun h ValueIdx.ix0
  dsimp only [fn, fn_part1] at h'
  obtain ⟨h0123, h4⟩ := IntOp.andi_eq_one.1 h'
  obtain ⟨h012, h3⟩ := IntOp.andi_eq_one.1 h0123
  obtain ⟨h01, h2⟩ := IntOp.andi_eq_one.1 h012
  obtain ⟨h0, h1⟩ := IntOp.andi_eq_one.1 h01
  exact ⟨fun i => real_of_abs_lt _ (Host.reduce_andi_all _ _ _ _ _ h0 i),
    fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i)⟩

end Cert.Pre_finite_inputs.Real

end
-- ==== Proof.lean ====
/-
  A linear layer with a low-rank correction: out = x · (W + Δ)ᵀ against x · Wᵀ + x · Δᵀ.

  x is 4 × 2048 × 4096, W is 4096 × 4096, and Δ = ((B ∘ σ') · A) · 1 is built on the host from lora_A (16 × 4096),
  lora_B (4096 × 16) and the sixteen singular values σ, masked to 0 where |σ| is below a threshold; both programs build
  Δ by the same host operations.  The kernel's program adds Δ to W, transposes, merges the two leading axes of x, and
  multiplies the 8192 × 4096 by 4096 × 4096 matrices in 1024-blocks on an 8 × 4 × 4 grid, accumulating along the
  contraction axis in a scratch block that is zeroed at each run's first point and copied out at its last; then it
  splits the rows again.  The reference contracts x against W and against Δ separately and adds.

  Over the extended reals, where a change of float format is the identity and sums may be regrouped freely, the
  kernel's result at (b, s, o) is ∑_d x[b,s,d]·(W[o,d] + Δ[o,d]) (the accumulator after k+1 blocks is the partial
  contraction over the first 1024·(k+1) indices, by induction along a run) and the reference's is
  ∑_d x[b,s,d]·W[o,d] + ∑_d x[b,s,d]·Δ[o,d].  They agree by distributivity, which over the extended reals needs the
  three factors real: x and W are by the precondition, Δ because it is a finite sum of products of real entries.

  The three frames: the two kernel programs' by their generated frame certificates, the reference's by its generated
  run with the result dropped.  The idealization rewrote nothing, so the preservation claim is trivial.
-/
import proofs.«122305_j40355512714080_1_alg».proof.Defs
import proofs.«122305_j40355512714080_1_alg».proof.Proof.Gen.Kernel
import proofs.«122305_j40355512714080_1_alg».proof.Proof.Gen.Kernel.Frame
import proofs.«122305_j40355512714080_1_alg».proof.Proof.Gen.KernelIdeal
import proofs.«122305_j40355512714080_1_alg».proof.Proof.Gen.KernelIdeal.Frame
import proofs.«122305_j40355512714080_1_alg».proof.Proof.Gen.ReferenceIdeal
import proofs.«122305_j40355512714080_1_alg».proof.Proof.Gen.ReferenceIdeal.Run
import proofs.«122305_j40355512714080_1_alg».proof.Proof.Gen.ReferenceIdeal.Read
import proofs.«122305_j40355512714080_1_alg».proof.Proof.Gen.Pre_finite_inputs
import proofs.«122305_j40355512714080_1_alg».proof.Proof.KernelValue
import proofs.«122305_j40355512714080_1_alg».proof.Proof.RefSide
import proofs.«122305_j40355512714080_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at ∑_d x[b,s,d]·(W[o,d] + Δ[o,d]) of arguments that agree: the kernel by its blocked product,
    the reference by distributivity on real arguments. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v13_eq]
  obtain ⟨r0, r1, r2, r3, r4⟩ := Cert.Pre_finite_inputs.Real.real_of_pre _ _ _ _ _ (hpre c)
  funext i
  rw [Cert.ReferenceIdeal.RefValue.ref_eq_merged _ _ _ _ _ r0 r1 r2 r3 r4 i]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
